-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512 .f32) (main_arg5 : FVec F S512 .f32) (main_arg6 : FVec F S1x512 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_v33

def fn {F : FTy → Type} [FloatOps F] (main_arg0 : FVec F S65536x512 .f32) (main_arg1 : FVec F S512 .f32) (main_arg2 : FVec F S512 .f32) (main_arg3 : FVec F S512 .f32) (main_arg4 : FVec F S512 .f32) (main_arg5 : FVec F S512 .f32) (main_arg6 : FVec F S1x512 .f32) (main_arg7 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S65536x512 : Shape := ⟨2, ![65536, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S65536x1 : Shape := ⟨2, ![65536, 1]⟩
abbrev S2048x512 : Shape := ⟨2, ![2048, 512]⟩
abbrev S2048x1 : Shape := ⟨2, ![2048, 1]⟩
abbrev S2048 : Shape := ⟨1, ![2048]⟩
abbrev S65536 : Shape := ⟨1, ![65536]⟩

abbrev nBuf : Space → Nat
  | .hbm => 15
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x1, .f32⟩
  | .hbm, ⟨13, _⟩ => ⟨S65536x1, .f32⟩
  | .hbm, ⟨14, _⟩ => ⟨S65536, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x512_S2048x512 : S1x512.Broadcasts S2048x512
  reduces_S2048x512_S2048 : S2048x512.Reduces [1] S2048
  shapeCasts_S2048_S2048x1 : S2048.ShapeCasts S2048x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S65536 : S65536x1.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S65536x1.size a
  hwx0_7 : ∀ i : grid0.Coords, EltTy.bits .f32 = 32 ∨ (Rect.block (s := S65536x1) S2048x1.size (cc0_transform_7 i) (hinb0_7 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x512 : Shape := ⟨2, ![65536, 512]⟩
abbrev S512 : Shape := ⟨1, ![512]⟩
abbrev S1x512 : Shape := ⟨2, ![1, 512]⟩
abbrev S1 : Shape := ⟨1, ![1]⟩
abbrev S_ : Shape := ⟨0, ![]⟩
abbrev S512x1 : Shape := ⟨2, ![512, 1]⟩
abbrev S65536x1 : Shape := ⟨2, ![65536, 1]⟩
abbrev S1x1 : Shape := ⟨2, ![1, 1]⟩
abbrev S65536 : Shape := ⟨1, ![65536]⟩

abbrev nBuf : Space → Nat
  | .hbm => 37
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S512, .f32⟩
  | .hbm, ⟨19, _⟩ => ⟨S1x512, .f32⟩
  | .hbm, ⟨20, _⟩ => ⟨S65536x512, .f32⟩
  | .hbm, ⟨21, _⟩ => ⟨S65536x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S1x512, .f32⟩
  | .hbm, ⟨29, _⟩ => ⟨S65536x512, .f32⟩
  | .hbm, ⟨30, _⟩ => ⟨S65536x512, .f32⟩
  | .hbm, ⟨31, _⟩ => ⟨S512x1, .f32⟩
  | .hbm, ⟨32, _⟩ => ⟨S65536x1, .f32⟩
  | .hbm, ⟨33, _⟩ => ⟨S1x1, .f32⟩
  | .hbm, ⟨34, _⟩ => ⟨S65536x1, .f32⟩
  | .hbm, ⟨35, _⟩ => ⟨S65536x1, .f32⟩
  | .hbm, ⟨36, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  transposes_S1x512_S512x1_1_0 : S1x512.Transposes [1, 0] S512x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  dot_S65536x512_S512x1_S65536x1_1_0_0_1_n_n_wf : DotDims.WF S65536x512 S512x1 S65536x1 [1] [0] [0] [1] [] []

variable [Facts₀]

def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf

class Facts : Prop extends Facts₀ where

variable [Facts]
-- ==== Proof.Spec.lean ====
/-
  The result of both programs as ONE function of the argument arrays.

  Row b of the state batch goes, wire by wire, through a squeeze, a rotation, a displacement and a second squeeze of a
  Gaussian mean: wire k's feature is
      exp(-r2 k) * (((2 * x b k) * exp(-r k)) * cos(phi k) + 2 * d k),
  and the head is the weighted sum of the 512 features of the row plus a bias,
      out b = (sum over k of feature b k * w k) + beta.
  The operations are written in the order both programs apply them, so that neither side needs an algebraic law of
  the extended reals beyond 0 - a = -a; the literal 2 stays the f32 word both programs print.
-/
import Idealize.ShloMosaic.PureOps.Ideal
import Idealize.ShloMosaic.Lib.ValueIdx

noncomputable section

namespace Cert.CvHead

open Idealize.ShloMosaic Idealize.ShloMosaic.ValueIdx

/-- The f32 literal 2.0 at the ideal values. -/
abbrev two : EReal := Ideal.ofBits .f32 0x40000000#32

/-- One row's head from the row's 512 entries `xr` and the per-wire parameters: the squeeze `r`, the phase `phi`, the
    displacement `d`, the second squeeze `r2`, the head's weights `w` and its bias `beta`. -/
def rowHead (xr r phi d r2 w : Fin 512 → EReal) (beta : EReal) : EReal :=
  (∑ k : Fin 512, (Ideal.exp (-(r2 k)) * (((two * xr k) * Ideal.exp (-(r k))) * Ideal.cos (phi k) + two * d k)) * w k) + beta

/-- The whole result, a length-65536 vector: entry b is the head of row b of the state batch. -/
def head (x : (⟨2, ![65536, 512]⟩ : Shape).Idx → EReal) (r phi d r2 : (⟨1, ![512]⟩ : Shape).Idx → EReal)
    (w : (⟨2, ![1, 512]⟩ : Shape).Idx → EReal) (beta : (⟨1, ![1]⟩ : Shape).Idx → EReal) : (⟨1, ![65536]⟩ : Shape).Idx → EReal :=
  fun i => rowHead (fun k => x (ix2 (i 0) k)) (fun k => r (ix1 k)) (fun k => phi (ix1 k)) (fun k => d (ix1 k))
    (fun k => r2 (ix1 k)) (fun k => w (ix2 (0 : Fin 1) k)) (beta (ix1 (0 : Fin 1)))

end Cert.CvHead

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Payload.lean ====
/-
  The kernel body's arithmetic at an index.

  The body loads a [2048, 512] block of the state batch, five [1, 512] parameter rows and a [1, 1] bias, forms the
  feature of every entry of the block (each parameter row repeated down the 2048 rows), multiplies by the weights'
  row, sums each row of the block over its 512 lanes, lays the 2048 sums out as a [2048, 1] column and adds the
  bias to each. Read at row r of the column this is the head of row r of the block: the lane sum is a sum over
  k : Fin 512, a row repeated down the rows is read at (0, k), the column entry (r, 0) is the r-th sum, and the
  body's 0 - a is -a.
-/
import proofs.«107739_j65481071409932_1_alg».proof.Proof.Gen.KernelIdeal.Skeleton
import proofs.«107739_j65481071409932_1_alg».proof.Proof.Spec
import proofs.«107739_j65481071409932_1_alg».proof.Proof.LibKeepdims
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- A sum over the 512 lanes of a [2048, 512] array, read at row r. -/
theorem lane_sum (src : FVec Ideal S2048x512 .f32) (h : S2048x512.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The body's stored column at row r is the head of row r of the loaded block. -/
theorem pay_at (x0 : FVec Ideal S2048x512 .f32) (x1 x2 x3 x4 x5 : FVec Ideal S1x512 .f32) (x6 : FVec Ideal S1x1 .f32)
    (r : Fin 2048) (q : Fin 1) :
    k0_pay1 (F := Ideal) x0 x1 x2 x3 x4 x5 x6 (ix2 r q)
      = CvHead.rowHead (fun k => x0 (ix2 r k)) (fun k => x1 (ix2 (0 : Fin 1) k)) (fun k => x2 (ix2 (0 : Fin 1) k))
          (fun k => x3 (ix2 (0 : Fin 1) k)) (fun k => x4 (ix2 (0 : Fin 1) k)) (fun k => x5 (ix2 (0 : Fin 1) k))
          (x6 (ix2 (0 : Fin 1) (0 : Fin 1))) := by
  obtain rfl : q = 0 := Subsingleton.elim _ _
  unfold k0_pay1 CvHead.rowHead
  simp only [addf_apply, Keepdims.shapeCast_a_a1_apply, broadcastTo_1b_ab_apply, shapeCast_self]
  refine congrArg (· + x6 (ix2 (0 : Fin 1) (0 : Fin 1))) ((lane_sum _ _ _ _ r).trans (Finset.sum_congr rfl fun k _ => ?_))
  simp only [mulf_apply, addf_apply, subf_apply, broadcast_apply, broadcastTo_1b_ab_apply, exp, cos, Ideal.exp_def,
    Ideal.cos_def, Ideal.ofBits_def, Ideal.ofBits_zero_f32, zero_sub]

end Cert.KernelIdeal.Payload

end
-- ==== Proof.Blocks.lean ====
/-
  From the body's column at one grid point to the whole output array.

  The grid has 32 points. Point t loads rows 2048 t .. 2048 t + 2047 of the state batch and the same five parameter
  rows and bias cell at every point, and writes back rows 2048 t .. 2048 t + 2047 of the [65536, 1] output column.
  The parameter rows are host reshapes of the length-512 argument vectors, made before the pallas_call. So the
  block point t writes is the restriction to its rows of ONE column, whose entry (b, 0) is the head of row b; the 32
  blocks tile the column (row b lies in the block of point b / 2048), hence the output array ends as that column.
-/
import proofs.«107739_j65481071409932_1_alg».proof.Proof.Gen.KernelIdeal.Frame
import proofs.«107739_j65481071409932_1_alg».proof.Proof.Payload
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays the pallas_call finds, at their literal types -/

abbrev stateArr (c : Dev nD) : Vec Ideal S65536x512 .f32 := V m c main_arg0
abbrev squeezeRow (c : Dev nD) : Vec Ideal S1x512 .f32 := V m c main_v0
abbrev phaseRow (c : Dev nD) : Vec Ideal S1x512 .f32 := V m c main_v1
abbrev dispRow (c : Dev nD) : Vec Ideal S1x512 .f32 := V m c main_v2
abbrev squeeze2Row (c : Dev nD) : Vec Ideal S1x512 .f32 := V m c main_v3
abbrev weightRow (c : Dev nD) : Vec Ideal S1x512 .f32 := V m c main_arg6
abbrev biasCell (c : Dev nD) : Vec Ideal S1x1 .f32 := V m c main_v4

/-- The output column: entry (b, 0) is the head of row b of the state batch. -/
def column (c : Dev nD) : Vec Ideal S65536x1 .f32 := fun i =>
  CvHead.rowHead (fun k => stateArr m c (ix2 (i 0) k)) (fun k => squeezeRow m c (ix2 (0 : Fin 1) k))
    (fun k => phaseRow m c (ix2 (0 : Fin 1) k)) (fun k => dispRow m c (ix2 (0 : Fin 1) k))
    (fun k => squeeze2Row m c (ix2 (0 : Fin 1) k)) (fun k => weightRow m c (ix2 (0 : Fin 1) k))
    (biasCell m c (ix2 (0 : Fin 1) (0 : Fin 1)))

/-! ## The index maps over the grid -/

theorem zero_offsets : (![0, 0] : Fin 2 → Nat) = fun _ => 0 := funext fun a => by fin_cases a <;> rfl

/-- Point t's block of the state batch and of the output is block t along the rows; every parameter window stays
    at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The row of the arrays that local row r of point t's block is. -/
def rowOf (t : Fin cfg0.N) (r : Fin 2048) : Fin 65536 :=
  ⟨t.val * 2048 + r.val, by have hN : grid0.N = 32 := N_0; have ht : t.val < grid0.N := t.isLt; have := r.isLt; omega⟩

/-! ## Each window's block read where the output's row says -/

theorem state_block (c : Dev nD) (t : Fin cfg0.N) (r : Fin 2048) (k : Fin 512) :
    iblk m c 0 t (ix2 r k) = stateArr m c (ix2 (rowOf t r) k) := by
  obtain ⟨e00, e01, -⟩ := block_indices t
  show V m c main_arg0 (((cfg0.win 0).blk t).view.emb (ix2 r k)) = V m c main_arg0 (ix2 (rowOf t r) k)
  refine congrArg _ (funext fun a => Fin.ext ?_)
  match a with
  | ⟨0, _⟩ => show win0_0.index t (0 : Fin 2) * 2048 + 1 * r.val = t.val * 2048 + r.val; omega
  | ⟨1, _⟩ => show win0_0.index t (1 : Fin 2) * 512 + 1 * k.val = k.val; omega

/-- A parameter window's one block is the whole [1, 512] row, at every point. -/
theorem squeeze_block (c : Dev nD) (t : Fin cfg0.N) (k : Fin 512) :
    iblk m c 1 t (ix2 (0 : Fin 1) k) = squeezeRow m c (ix2 (0 : Fin 1) k) := by
  have e := block_indices t
  show V m c main_v0 (((cfg0.win 1).blk t).view.emb (ix2 (0 : Fin 1) k)) = V m c main_v0 (ix2 (0 : Fin 1) k)
  refine congrArg _ (funext fun a => Fin.ext ?_)
  match a with
  | ⟨0, _⟩ => show win0_1.index t (0 : Fin 2) * 1 + 1 * 0 = 0; omega
  | ⟨1, _⟩ => show win0_1.index t (1 : Fin 2) * 512 + 1 * k.val = k.val; omega

theorem phase_block (c : Dev nD) (t : Fin cfg0.N) (k : Fin 512) :
    iblk m c 2 t (ix2 (0 : Fin 1) k) = phaseRow m c (ix2 (0 : Fin 1) k) := by
  have e := block_indices t
  show V m c main_v1 (((cfg0.win 2).blk t).view.emb (ix2 (0 : Fin 1) k)) = V m c main_v1 (ix2 (0 : Fin 1) k)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

theorem disp_block (c : Dev nD) (t : Fin cfg0.N) (k : Fin 512) :
    iblk m c 3 t (ix2 (0 : Fin 1) k) = dispRow m c (ix2 (0 : Fin 1) k) := by
  have e := block_indices t
  show V m c main_v2 (((cfg0.win 3).blk t).view.emb (ix2 (0 : Fin 1) k)) = V m c main_v2 (ix2 (0 : Fin 1) k)
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * k.val = k.val; omega

theorem squeeze2_block (c : Dev nD) (t : Fin cfg0.N) (k : Fin 512) :
    iblk m c 4 t (ix2 (0 : Fin 1) k) = squeeze2Row m c (ix2 (0 : Fin 1) k) := by
  have e := block_indices t
  show V m c main_v3 (((cfg0.win 4).blk t).view.emb (ix2 (0 : Fin 1) k)) = V m c main_v3 (ix2 (0 : Fin 1) k)
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * k.val = k.val; omega

theorem weight_block (c : Dev nD) (t : Fin cfg0.N) (k : Fin 512) :
    iblk m c 5 t (ix2 (0 : Fin 1) k) = weightRow m c (ix2 (0 : Fin 1) k) := by
  have e := block_indices t
  show V m c main_arg6 (((cfg0.win 5).blk t).view.emb (ix2 (0 : Fin 1) k)) = V m c main_arg6 (ix2 (0 : Fin 1) k)
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * k.val = k.val; omega

/-- and the bias window's the one cell. -/
theorem bias_block (c : Dev nD) (t : Fin cfg0.N) :
    iblk m c 6 t (ix2 (0 : Fin 1) (0 : Fin 1)) = biasCell m c (ix2 (0 : Fin 1) (0 : Fin 1)) := by
  have e := block_indices t
  show V m c main_v4 (((cfg0.win 6).blk t).view.emb (ix2 (0 : Fin 1) (0 : Fin 1))) = V m c main_v4 (ix2 (0 : Fin 1) (0 : Fin 1))
  refine congrArg _ (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-- Local entry (r, q) of point t's output block is entry (rowOf t r, 0) of the output column. -/
theorem out_index (t : Fin cfg0.N) (r : Fin 2048) (q : Fin 1) :
    ((cfg0.win 7).blk t).view.emb (ix2 r q) = ix2 (rowOf t r) (0 : Fin 1) := by
  have e := block_indices t
  refine funext fun a => Fin.ext ?_
  match a with
  | ⟨0, _⟩ => show win0_7.index t (0 : Fin 2) * 2048 + 1 * r.val = t.val * 2048 + r.val; omega
  | ⟨1, _⟩ => show win0_7.index t (1 : Fin 2) * 1 + 1 * q.val = 0; have := q.isLt; omega

/-! ## What point t writes back -/

/-- Point t writes back block t of the column. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero zero_offsets]
  simp only [View.ld_unit_zero (S := S2048x512) zero_offsets, View.ld_unit_zero (S := S1x512) zero_offsets,
    View.ld_unit_zero (S := S1x1) zero_offsets]
  funext j
  obtain ⟨r, q, rfl⟩ : ∃ (r : Fin 2048) (q : Fin 1), j = ix2 r q := ⟨j 0, j 1, eq_ix2 j⟩
  show k0_pay1 (F := Ideal) (iblk m c 0 t) (iblk m c 1 t) (iblk m c 2 t) (iblk m c 3 t) (iblk m c 4 t) (iblk m c 5 t)
      (iblk m c 6 t) (ix2 r q) = column m c (((cfg0.win 7).blk t).view.emb (ix2 r q))
  refine (Payload.pay_at (iblk m c 0 t) (iblk m c 1 t) (iblk m c 2 t) (iblk m c 3 t) (iblk m c 4 t) (iblk m c 5 t)
    (iblk m c 6 t) r q).trans ?_
  rw [out_index]
  simp only [state_block, squeeze_block, phase_block, disp_block, squeeze2_block, weight_block, bias_block]
  rfl

/-! ## The blocks tile the column -/

theorem mem_block (t : Fin cfg0.N) (i : S65536x1.Idx) :
    i ∈ ((cfg0.win 7).blk t).view.set ↔ ∀ a : Fin 2, win0_7.index t a * S2048x1.size a ≤ (i a).val
      ∧ (i a).val < win0_7.index t a * S2048x1.size a + S2048x1.size a := by
  show i ∈ ((View.whole main_v5).slice (win0_7.rect t)).set ↔ _
  rw [View.set_slice_whole, Rect.mem_set_unit]
  exact Iff.rfl

/-- Row b of the column lies in the block of point b / 2048, and every point writes its block back. -/
theorem covered (i : S65536x1.Idx) :
    ∃ t : Fin cfg0.N, (cfg0.win 7).flush t = true ∧ i ∈ ((cfg0.win 7).blk t).view.set := by
  have hi0 : (i 0).val < 65536 := (i 0).isLt
  have hi1 : (i 1).val < 1 := (i 1).isLt
  have hN : grid0.N = 32 := N_0
  have ht : (i 0).val / 2048 < grid0.N := by omega
  refine ⟨⟨(i 0).val / 2048, ht⟩, flush0_7 _, ?_⟩
  rw [mem_block]
  have e := block_indices ⟨(i 0).val / 2048, ht⟩
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    have e70 : win0_7.index ⟨(i 0).val / 2048, ht⟩ (0 : Fin 2) = (i 0).val / 2048 := e.2.2.2.2.2.2.2.2.2.2.2.2.2.2.1
    omega
  | ⟨1, _⟩ =>
    show win0_7.index ⟨(i 0).val / 2048, ht⟩ (1 : Fin 2) * 1 ≤ (i 1).val
      ∧ (i 1).val < win0_7.index ⟨(i 0).val / 2048, ht⟩ (1 : Fin 2) * 1 + 1
    have e71 : win0_7.index ⟨(i 0).val / 2048, ht⟩ (1 : Fin 2) = 0 := e.2.2.2.2.2.2.2.2.2.2.2.2.2.2.2
    omega

/-- The output array after the run is the column. -/
theorem final (c : Dev nD) : (dats m 0 c).arrAt 7 cfg0.N = column m c :=
  (dats m 0 c).arrAt_eq_of_cover 7 (column m c) (fun t _ => flushed_eq m c t) covered

end Cert.KernelIdeal.Blocks

end
-- ==== Proof.LibColumnToVector.lean ====
/-
  A column recast as a vector, read at an index: an [a, 1] array cast to [a] reads, at i, the column's entry of row i.
  (The converse, [a] → [a, 1], and the row forms [a] → [1, a], [1, a] → [a] are elsewhere; this is the one missing.)
-/
import Idealize.ShloMosaic.Lib.Pipeline.Value
import Idealize.ShloMosaic.Lib.ValueIdx

noncomputable section

namespace Idealize.ShloMosaic.ColumnVector

open Idealize.ShloMosaic Idealize.ShloMosaic.ValueIdx

variable {α : Type}

/-- An `[a, 1]` column cast to `[a]` reads, at `i`, the operand at `(i, 0)`: both positions are the i-th in row-major order. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnVector

end
-- ==== Proof.KernelRun.lean ====
/-
  The kernel program's run, read as the head of its arguments.

  Before the pallas_call the host recasts the squeeze, phase, displacement and second-squeeze vectors as [1, 512]
  rows and the bias as a [1, 1] cell: a row read at (0, k) is the vector at k. After it the host recasts the
  [65536, 1] output column as a length-65536 vector: entry b is the column at (b, 0). With the column of the blocks'
  module this makes the result the head of the argument arrays, and the arguments end as they were.
-/
import proofs.«107739_j65481071409932_1_alg».proof.Proof.Blocks
import proofs.«107739_j65481071409932_1_alg».proof.Proof.LibColumnToVector
import Idealize.ShloMosaic.Lib.ValueLayout

set_option maxRecDepth 16384

noncomputable section

namespace Cert.KernelIdeal.KernelRun

open Cert.KernelIdeal Cert.KernelIdeal.Gen Cert.KernelIdeal.Blocks Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-! ## The host's rows before the pallas_call -/

/-- Each [1, 512] row the pallas_call finds is its length-512 argument vector recast; the bias cell likewise. -/

theorem squeezeRow_eq (c : Dev nD) :
    squeezeRow m c = shapeCast S1x512 (m ((c : Thread nD τ).loc main_arg1)) shapeCasts_S512_S1x512 := by
  show StableHlo.after hostOps0 (fun b => m (c, b)) (Proc.devRef .tc main_v0) = _
  after_results
  rfl

theorem phaseRow_eq (c : Dev nD) :
    phaseRow m c = shapeCast S1x512 (m ((c : Thread nD τ).loc main_arg2)) shapeCasts_S512_S1x512 := by
  show StableHlo.after hostOps0 (fun b => m (c, b)) (Proc.devRef .tc main_v1) = _
  after_results
  rfl

theorem dispRow_eq (c : Dev nD) :
    dispRow m c = shapeCast S1x512 (m ((c : Thread nD τ).loc main_arg3)) shapeCasts_S512_S1x512 := by
  show StableHlo.after hostOps0 (fun b => m (c, b)) (Proc.devRef .tc main_v2) = _
  after_results
  rfl

theorem squeeze2Row_eq (c : Dev nD) :
    squeeze2Row m c = shapeCast S1x512 (m ((c : Thread nD τ).loc main_arg4)) shapeCasts_S512_S1x512 := by
  show StableHlo.after hostOps0 (fun b => m (c, b)) (Proc.devRef .tc main_v3) = _
  after_results
  rfl

theorem biasCell_eq (c : Dev nD) :
    biasCell m c = shapeCast S1x1 (m ((c : Thread nD τ).loc main_arg7)) shapeCasts_S1_S1x1 := by
  show StableHlo.after hostOps0 (fun b => m (c, b)) (Proc.devRef .tc main_v4) = _
  after_results
  rfl

/-! ## The host's recast after the pallas_call -/

theorem tail_value (c : Dev nD) :
    Pipeline.afterTail₀ cfgs (dats m) 0 (V0 m) [hostOps1] c main_v6
      = shapeCast S65536 (column m c) shapeCasts_S65536x1_S65536 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = column m c := (Pipeline.withArrays_arr spec0 launch0.win.arr_inj c _ _ 7).trans (final m c)
  rw [e]
  rfl

/-- The result vector is the head of the argument arrays. -/
theorem result (c : Dev nD) :
    Pipeline.afterTail₀ cfgs (dats m) 0 (V0 m) [hostOps1] c main_v6
      = CvHead.head (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg6)) (m ((c : Thread nD τ).loc main_arg7)) := by
  rw [tail_value]
  funext i
  obtain ⟨b, rfl⟩ : ∃ b : Fin 65536, i = ix1 b := ⟨i 0, eq_ix1 i⟩
  rw [ColumnVector.shapeCast_a1_a_apply]
  have hx : stateArr m c = m ((c : Thread nD τ).loc main_arg0) := V_main_arg0 m c
  have hw : weightRow m c = m ((c : Thread nD τ).loc main_arg6) := V_main_arg6 m c
  unfold column CvHead.head
  rw [hx, hw, squeezeRow_eq, phaseRow_eq, dispRow_eq, squeeze2Row_eq, biasCell_eq]
  simp only [shapeCast_a_1a_apply]

/-! ## The run -/

/-- Every weakly fair execution of the kernel program ends with the result at the head of the argument arrays and
    the arguments as they were: the frame run's post read at the result (a buffer the host wrote after the
    pallas_call) and at each argument (a staged input keeps its entry contents; the others no window stages). -/
theorem run : θ_run defs (onTc (τ := τ) (main (F := Ideal))) ⟨m, fun _ => 0, ρ⟩ (fun r => ∀ c : Dev nD,
      r.2.mem ((c.tc : Thread nD τ).loc main_v6)
        = CvHead.head (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v6 (Pipeline.mem_restRefs_of main_v6 (by decide) (by decide))).trans (result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c)⟩)
    (run_main m ρ)

end Cert.KernelIdeal.KernelRun

end
-- ==== Proof.RefValue.lean ====
/-
  The reference computes the head.

  The host program forms the same features with whole-array operations: each length-512 parameter vector is laid as
  a [1, 512] row and repeated down the 65536 rows, the features are multiplied out entry by entry, the head is the
  product of the [65536, 512] feature array with the transposed weights' [512, 1] column (at the ideal values the
  plain sum over k of feature (b, k) times weight (k, 0)), the bias is repeated down the column and added, and the
  [65536, 1] column is recast as a vector. Read at entry b, stage by stage, this is the head of row b.
-/
import proofs.«107739_j65481071409932_1_alg».proof.Proof.Gen.ReferenceIdeal.Read
import proofs.«107739_j65481071409932_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Entry b of the result vector is entry (b, 0) of the column, whose k-th product reads the features at (b, k). -/
theorem lhs_index (b : Fin 65536) (k : Fin 512) : lidx_main_v22 (idx_main_v26 (ix1 b)) k = ix2 b k :=
  funext fun a => Fin.ext (by
    match a with
    | ⟨0, _⟩ => exact Nat.div_one _
    | ⟨1, _⟩ => rfl)

/-- and the transposed weights at (k, 0), -/
theorem rhs_index (b : Fin 65536) (k : Fin 512) : ridx_main_v22 (idx_main_v26 (ix1 b)) k = ix2 k (0 : Fin 1) :=
  funext fun a => Fin.ext (by
    match a with
    | ⟨0, _⟩ => rfl
    | ⟨1, _⟩ => rfl)

/-- which is the weights' row at (0, k). -/
theorem transposed_index (k : Fin 512) : idx_main_v21 (ix2 k (0 : Fin 1)) = ix2 (0 : Fin 1) k :=
  funext fun a => Fin.ext (by
    match a with
    | ⟨0, _⟩ => rfl
    | ⟨1, _⟩ => rfl)

/-- A parameter vector laid as a row and repeated down the rows is read, at (b, k), at k: the squeeze, then the phase,
    the displacement and the second squeeze, each through its own pair of layout stages. -/
theorem row_index (b : Fin 65536) (k : Fin 512) : idx_main_v6 (idx_main_v7 (ix2 b k)) = ix1 k :=
  funext fun a => Fin.ext (by
    match a with
    | ⟨0, _⟩ => rfl)

theorem row_index_phase (b : Fin 65536) (k : Fin 512) : idx_main_v10 (idx_main_v11 (ix2 b k)) = ix1 k :=
  funext fun a => Fin.ext (by
    match a with
    | ⟨0, _⟩ => rfl)

theorem row_index_disp (b : Fin 65536) (k : Fin 512) : idx_main_v15 (idx_main_v16 (ix2 b k)) = ix1 k :=
  funext fun a => Fin.ext (by
    match a with
    | ⟨0, _⟩ => rfl)

theorem row_index_squeeze2 (b : Fin 65536) (k : Fin 512) : idx_main_v18 (idx_main_v19 (ix2 b k)) = ix1 k :=
  funext fun a => Fin.ext (by
    match a with
    | ⟨0, _⟩ => rfl)

/-- The bias repeated down the column is read at its one entry. -/
theorem bias_index (b : Fin 65536) : idx_main_v23 (idx_main_v24 (idx_main_v26 (ix1 b))) = ix1 (0 : Fin 1) :=
  funext fun a => Fin.ext (by
    match a with
    | ⟨0, _⟩ => rfl)

/-- The reference's result is the head of the argument arrays. -/
theorem ref_is_head (x0 : (⟨S65536x512, .f32⟩ : BufTy).Contents (Elt Ideal)) (x1 x2 x3 x4 : (⟨S512, .f32⟩ : BufTy).Contents (Elt Ideal))
    (x6 : (⟨S1x512, .f32⟩ : BufTy).Contents (Elt Ideal)) (x7 : (⟨S1, .f32⟩ : BufTy).Contents (Elt Ideal)) :
    val_main_v26 (F := Ideal) x0 x1 x2 x3 x4 x6 x7 = CvHead.head x0 x1 x2 x3 x4 x6 x7 := by
  funext i
  obtain ⟨b, rfl⟩ : ∃ b : Fin 65536, i = ix1 b := ⟨i 0, eq_ix1 i⟩
  rw [val_main_v26_apply, val_main_v25_apply, val_main_v22_apply, val_main_v24_apply, val_main_v23_apply, bias_index]
  unfold CvHead.head CvHead.rowHead
  simp only [lhs_index, rhs_index, val_main_v21_apply, transposed_index, val_main_v20_apply, val_main_v19_apply,
    val_main_v18_apply, val_main_v17_apply, val_main_v16_apply, val_main_v15_apply, val_main_v14_apply, val_main_v13_apply,
    val_main_cst_0_apply, val_main_v12_apply, val_main_v11_apply, val_main_v10_apply, val_main_v9_apply, val_main_v8_apply,
    val_main_v7_apply, val_main_v6_apply, val_main_v5_apply, val_main_v4_apply, val_main_v3_apply, val_main_v2_apply,
    val_main_cst_apply, val_main_v1_apply, val_main_v0_apply, row_index, row_index_phase, row_index_disp,
    row_index_squeeze2, Ideal.addf_def, Ideal.mulf_def, Ideal.hostUnary_exp_def, Ideal.hostUnary_cos_def,
    Ideal.hostNegf_def, Ideal.negf_def, Ideal.ofBits_def]

end Cert.ReferenceIdeal.RefValue

end
-- ==== Proof.lean ====
/-
  A continuous-variable feature head: the kernel against its jnp reference, over the extended reals.

  Both programs take a [65536, 512] batch of states x and, per wire k, a squeeze r, a phase phi, a displacement d, a
  second squeeze r2, a head weight w and one bias beta (the Kerr parameter is an argument neither reads), and return,
  for every row b,
      out b = (sum over k of  exp(-r2 k) * (((2 * x b k) * exp(-r k)) * cos(phi k) + 2 * d k) * w k) + beta.
  The kernel walks the batch in 32 blocks of 2048 rows, forming the features of a block entry by entry and summing
  each row over its 512 lanes; the reference forms the whole feature array and contracts it with the transposed
  weights. At the ideal values a lane sum and a contraction are the same finite sum, taken in the same order of
  operations inside each term, so the two results agree term by term: no distributivity, no cancellation, and
  nothing is used of the inputs being finite. The only law is 0 - a = -a for the kernel's negation.

  Spec.lean states the head; Payload.lean reads the kernel body's arithmetic at an index; Blocks.lean takes the
  blocks to the whole output column; KernelRun.lean carries the host's reshapes around the pallas_call and gives the
  kernel program's run; RefValue.lean reads the reference's stages at an index. The three frames are the kernel
  programs' generated frames and the reference's generated run with its result dropped; the idealization rewrote
  no operation, so there is nothing to preserve.
-/
import proofs.«107739_j65481071409932_1_alg».proof.Defs
import proofs.«107739_j65481071409932_1_alg».proof.Proof.Gen.Kernel
import proofs.«107739_j65481071409932_1_alg».proof.Proof.Gen.Kernel.Skeleton
import proofs.«107739_j65481071409932_1_alg».proof.Proof.Gen.Kernel.Launch
import proofs.«107739_j65481071409932_1_alg».proof.Proof.Gen.Kernel.Points
import proofs.«107739_j65481071409932_1_alg».proof.Proof.Gen.Kernel.Frame
import proofs.«107739_j65481071409932_1_alg».proof.Proof.Gen.KernelIdeal
import proofs.«107739_j65481071409932_1_alg».proof.Proof.Gen.KernelIdeal.Skeleton
import proofs.«107739_j65481071409932_1_alg».proof.Proof.Gen.KernelIdeal.Launch
import proofs.«107739_j65481071409932_1_alg».proof.Proof.Gen.KernelIdeal.Points
import proofs.«107739_j65481071409932_1_alg».proof.Proof.Gen.KernelIdeal.Frame
import proofs.«107739_j65481071409932_1_alg».proof.Proof.Gen.ReferenceIdeal
import proofs.«107739_j65481071409932_1_alg».proof.Proof.Gen.Pre_finite_inputs
import proofs.«107739_j65481071409932_1_alg».proof.Proof.Gen.ReferenceIdeal.Run
import proofs.«107739_j65481071409932_1_alg».proof.Proof.Gen.ReferenceIdeal.Read
import proofs.«107739_j65481071409932_1_alg».proof.Proof.KernelRun
import proofs.«107739_j65481071409932_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end at the head of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_is_head, (hagree c).1, (hagree c).2.1,
    (hagree c).2.2.1, (hagree c).2.2.2.1, (hagree c).2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
